-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x4096 : Shape := ⟨3, ![32, 128, 4096]⟩
abbrev S4096x4096 : Shape := ⟨2, ![4096, 4096]⟩
abbrev S4096 : Shape := ⟨1, ![4096]⟩
abbrev S_ : Shape := ⟨0, ![]⟩

class Facts : Prop where
  bcast_S_S32x128x4096 : S_.BroadcastsInDim S32x128x4096 (![] : Fin 0 → Fin S32x128x4096.rank)
  reducesTo_S32x128x4096_S_d0_1_2 : S32x128x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x128x4096 .f32) (main_arg1 : FVec F S4096x4096 .f32) (main_arg2 : FVec F S4096 .f32) : IVec S_ 1 :=
  let main_v0 : FVec F S32x128x4096 .f32 := Host.absf main_arg0
  let main_cst : FVec F S_ .f32 := constant S_ .f32 0x7F800000#32
  let main_v1 : FVec F S32x128x4096 .f32 := broadcastInDim S32x128x4096 ![] bcast_S_S32x128x4096 main_cst
  let main_v2 : IVec S32x128x4096 1 := cmpf .olt main_v0 main_v1
  let main_c : IVec S_ 1 := constantI S_ 1 1#1
  let main_v3 : IVec S_ 1 := (fun x v => Host.reduce IntOp.andi x v reducesTo_S32x128x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32x128x4096 : Shape := ⟨3, ![32, 128, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32x128x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S32x128x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32x128x4096_S4096x4096 : S32x128x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S32x128x4096 : S4096x4096.ShapeCasts S32x128x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x128x4096 : Shape := ⟨3, ![32, 128, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S32x128x4096, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S32x128x4096_S4096x4096 : S32x128x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S32x128x4096 : S4096x4096.ShapeCasts S32x128x4096
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one grid point of the kernel leaves behind, as values.

  The body keeps a running [1024, 1024] accumulator in scratch memory.  At a point whose contraction coordinate is 0 it
  first stores zeros, then adds the product of the point's input block by its weight block (transposed); at every other
  point it adds the product to what the point before left.  At the last contraction coordinate it also writes the
  accumulator plus the bias row, broadcast down the rows, into the output block.  Each statement below reads the run's
  final stores back as one pure term of the blocks the body loaded.
-/
import proofs.«160775_j12249246728781_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First contraction coordinate: the accumulator ends at zeros plus the product of the two blocks. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle contraction coordinate: the accumulator ends at what it held plus the product of the two blocks. -/
theorem acc_mid (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last contraction coordinate: the accumulator likewise, -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and the output block ends at that accumulator plus the bias row broadcast down the rows. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x1024) hz,
    View.ld_unit_zero (S := S1x1024) hz, View.readCov_unit_zero (S := S1024x1024) _ hz]

end Cert.KernelIdeal.Pieces

end
-- ==== Proof.Payload.lean ====
/-
  The body's three pure steps read at an entry, over the extended reals.

  The block product contracts the LAST axis of both operands (the weight block is stored outputs × features), so entry
  (r, q) is Σ_κ x[r, κ] · w[q, κ]; narrowing the operands to bf16 changes nothing over the extended reals.  The
  accumulate step adds that to the accumulator; the zero block is zero; the closing step adds the bias row, broadcast
  down the rows.
-/
import proofs.«160775_j12249246728781_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product at an entry: row `r` of the input block against row `q` of the weight block. -/
theorem blockProduct_apply (x w : FVec Ideal S1024x1024 .bf16) (r q : Fin 1024) :
    matmul dot_S1024x1024_S1024x1024_S1024x1024_1_1_0_0_n_n none x w (constant S1024x1024 .f32 0x00000000#32) (ix2 r q)
      = ∑ k : Fin 1024, x (ix2 r k) * w (ix2 q k) := by
  show FloatOps.matmul _ _ _ _ _ _ = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r q) ((ValueIdx.contrEquiv1 dot_S1024x1024_S1024x1024_S1024x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 r q) ((ValueIdx.contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The accumulate step at an entry: what the accumulator held plus the block product. -/
theorem step_apply (x w acc : Vec Ideal S1024x1024 .f32) (r q : Fin 1024) :
    k0_pay2 (F := Ideal) x w acc (ix2 r q) = acc (ix2 r q) + ∑ k : Fin 1024, x (ix2 r k) * w (ix2 q k) := by
  unfold k0_pay2
  simp only [shapeCast_self]
  rw [addf_apply, blockProduct_apply]
  rfl

/-- The zero block at an entry. -/
theorem zeros_apply (j : S1024x1024.Idx) : k0_pay1 (F := Ideal) j = 0 := by
  unfold k0_pay1
  simp only [shapeCast_self]
  show Ideal.ofBits .f32 0x00000000#32 = 0
  exact Ideal.ofBits_zero_f32

/-- The closing step at an entry: the accumulator plus the bias of the column. -/
theorem close_apply (acc : Vec Ideal S1024x1024 .f32) (b : Vec Ideal S1x1024 .f32) (r q : Fin 1024) :
    k0_pay3 (F := Ideal) acc b (ix2 r q) = acc (ix2 r q) + b (ix2 0 q) := by
  unfold k0_pay3
  simp only [shapeCast_self]
  rw [addf_apply]
  refine congrArg (acc (ix2 r q) + ·) ?_
  exact broadcastTo_apply b broadcasts_S1x1024_S1024x1024 (ix2 r q) (ix2 0 q) (fun a => match a with
    | ⟨0, _⟩ => by show (0 : ℕ) = if (1 : Nat) = 1 then 0 else _; rw [if_pos rfl]
    | ⟨1, _⟩ => by show q.val = if (1024 : Nat) = 1 then 0 else q.val; rw [if_neg (by decide)])

end Cert.KernelIdeal.Payload

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.Spec.lean ====
/-
  The linear layer as one function of its arrays, and its contraction cut into blocks.

  `X` is the flattened input [4096, 4096] (rows × features), `W` the weight [4096 outputs, 4096 features], `b` the bias
  as a one-row matrix.  Entry (R, Q) of the result is  Σ_κ X[R, κ] · W[Q, κ] + b[0, Q]  over the extended reals.
  Arrays are read at natural-number coordinates (`at2`: zero outside the extents), so that a block of an array is an
  offset of the coordinates and no index carries a proof.  The contraction's terms are then a sequence ℕ → EReal, and
  four consecutive blocks of 1024 terms added left to right onto zero are the whole contraction (`accum0_eq`).
-/
import Idealize.ShloMosaic.PureOps.Ideal
import Idealize.ShloMosaic.Lib.ValueIdx
import proofs.«160775_j12249246728781_1_alg».proof.Proof.LibBlockSum

noncomputable section

namespace Cert.Spec

open Idealize.ShloMosaic Idealize.ShloMosaic.ValueIdx Finset

/-- A rank-2 array read at natural-number coordinates: zero outside its extents. -/
def at2 {n0 n1 : Nat} (A : (⟨2, ![n0, n1]⟩ : Shape).Idx → EReal) (a b : ℕ) : EReal :=
  if h : a < n0 ∧ b < n1 then A (ix2 ⟨a, h.1⟩ ⟨b, h.2⟩) else 0

/-- Inside the extents `at2` is the array's entry. -/
theorem at2_of_lt {n0 n1 : Nat} (A : (⟨2, ![n0, n1]⟩ : Shape).Idx → EReal) (a : Fin n0) (b : Fin n1) :
    at2 A a.val b.val = A (ix2 a b) := by
  unfold at2
  rw [dif_pos ⟨a.isLt, b.isLt⟩]

/-- The same from any index whose coordinates are the given naturals. -/
theorem at2_eq {n0 n1 : Nat} (A : (⟨2, ![n0, n1]⟩ : Shape).Idx → EReal) (j : (⟨2, ![n0, n1]⟩ : Shape).Idx) (a b : ℕ)
    (ha : (j 0).val = a) (hb : (j 1).val = b) : A j = at2 A a b := by
  subst ha hb
  unfold at2
  rw [dif_pos (show (j 0).val < n0 ∧ (j 1).val < n1 from ⟨(j 0).isLt, (j 1).isLt⟩)]
  exact congrArg A (eq_ix2 j)

/-- Term κ of the contraction of row `R` of `X` against row `Q` of `W`. -/
def term {n : Nat} (X W : (⟨2, ![n, n]⟩ : Shape).Idx → EReal) (R Q κ : ℕ) : EReal := at2 X R κ * at2 W Q κ

/-- The linear layer's entry at natural-number coordinates: the whole contraction plus the bias of the column. -/
def linearAt (X W : (⟨2, ![4096, 4096]⟩ : Shape).Idx → EReal) (b : (⟨2, ![1, 4096]⟩ : Shape).Idx → EReal) (R Q : ℕ) : EReal :=
  (∑ κ ∈ range 4096, term X W R Q κ) + at2 b 0 Q

/-- The linear layer as an array. -/
def linear (X W : (⟨2, ![4096, 4096]⟩ : Shape).Idx → EReal) (b : (⟨2, ![1, 4096]⟩ : Shape).Idx → EReal) :
    (⟨2, ![4096, 4096]⟩ : Shape).Idx → EReal :=
  fun i => linearAt X W b (i 0).val (i 1).val

/-- Four blocks of 1024 terms, added in order onto zero, then the bias: the linear layer's entry. -/
theorem accum0_three_add (X W : (⟨2, ![4096, 4096]⟩ : Shape).Idx → EReal) (b : (⟨2, ![1, 4096]⟩ : Shape).Idx → EReal) (R Q : ℕ) :
    accum0 (term X W R Q) 1024 3 + at2 b 0 Q = linearAt X W b R Q := by
  rw [accum0_eq]
  rfl

/-- A sum over the 1024 coordinates of a block, as block `k` of the term sequence. -/
theorem sum_fin_eq_block (f : ℕ → EReal) (k : ℕ) : ∑ κ : Fin 1024, f (k * 1024 + κ.val) = block f 1024 k := by
  unfold block
  rw [Finset.sum_range]

/-- A sum over the 4096 coordinates of the contraction, as the term sequence's first 4096 terms. -/
theorem sum_fin_eq_range (f : ℕ → EReal) : ∑ κ : Fin 4096, f κ.val = ∑ κ ∈ range 4096, f κ := by
  rw [Finset.sum_range]

end Cert.Spec

end
-- ==== Proof.Accum.lean ====
/-
  The accumulator, point by point, and the array the kernel leaves.

  The grid is 4 × 4 × 4: row block `i`, column block `j`, contraction block `k`, point number 16·i + 4·j + k.  The input
  window's block at a point is rows 1024·i … of the flattened input and features 1024·k …; the weight window's block is
  weight rows 1024·j … and features 1024·k …; the bias window's block is bias columns 1024·j …; the output window's
  block is rows 1024·i …, columns 1024·j ….  After the point (i, j, k) entry (r, q) of the accumulator is blocks 0 … k of
  the contraction of input row 1024·i + r against weight row 1024·j + q, added in order onto zero (`acc_eq`, by
  induction on the point number); at k = 3 the output block is that plus the bias, which is the linear layer's entry
  (`out_eq`).  The sixteen written-back blocks tile the result array.
-/
import proofs.«160775_j12249246728781_1_alg».proof.Proof.Pieces
import proofs.«160775_j12249246728781_1_alg».proof.Proof.Payload
import proofs.«160775_j12249246728781_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Spec

variable (m : (ℓ : Loc nD τ sig) → Buf (Elt Ideal) ℓ) (ρ : Dev nD → PrngReg)

/-- The flattened input, the weight and the bias row as the region finds them. -/
abbrev xarr (c : Dev nD) : Vec Ideal S4096x4096 .f32 := V m c main_v0
abbrev warr (c : Dev nD) : Vec Ideal S4096x4096 .f32 := V m c main_arg1
abbrev barr (c : Dev nD) : Vec Ideal S1x4096 .f32 := V m c main_v1
/-- Their blocks at a point. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- The printed index maps in closed form over the point number, decided over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input block's entry (r, κ) is the flattened input at row 1024·i + r, feature 1024·k + κ. -/
theorem xblk_apply (c : Dev nD) (t : Fin cfg0.N) (r k : Fin 1024) :
    xblk m c t (ix2 r k) = at2 (xarr m c) (t.val / 16 * 1024 + r.val) (t.val % 4 * 1024 + k.val) := by
  obtain ⟨e0, e1, -⟩ := idx_facts t
  show V m c main_v0 (((cfg0.win 0).blk t).view.emb (ix2 r k)) = _
  refine at2_eq _ _ _ _ ?_ ?_
  · show win0_0.index t (0 : Fin 2) * 1024 + 1 * r.val = _; omega
  · show win0_0.index t (1 : Fin 2) * 1024 + 1 * k.val = _; omega

/-- The weight block's entry (q, κ) is the weight at row 1024·j + q, feature 1024·k + κ. -/
theorem wblk_apply (c : Dev nD) (t : Fin cfg0.N) (q k : Fin 1024) :
    wblk m c t (ix2 q k) = at2 (warr m c) (t.val / 4 % 4 * 1024 + q.val) (t.val % 4 * 1024 + k.val) := by
  obtain ⟨-, -, e0, e1, -⟩ := idx_facts t
  show V m c main_arg1 (((cfg0.win 1).blk t).view.emb (ix2 q k)) = _
  refine at2_eq _ _ _ _ ?_ ?_
  · show win0_1.index t (0 : Fin 2) * 1024 + 1 * q.val = _; omega
  · show win0_1.index t (1 : Fin 2) * 1024 + 1 * k.val = _; omega

/-- The bias block's entry (0, q) is the bias row at column 1024·j + q. -/
theorem bblk_apply (c : Dev nD) (t : Fin cfg0.N) (q : Fin 1024) :
    bblk m c t (ix2 0 q) = at2 (barr m c) 0 (t.val / 4 % 4 * 1024 + q.val) := by
  obtain ⟨-, -, -, -, e0, e1, -⟩ := idx_facts t
  show V m c main_v1 (((cfg0.win 2).blk t).view.emb (ix2 0 q)) = _
  refine at2_eq _ _ _ _ ?_ ?_
  · show win0_2.index t (0 : Fin 2) * 1 + 1 * 0 = _; omega
  · show win0_2.index t (1 : Fin 2) * 1024 + 1 * q.val = _; omega

/-- The terms of the contraction a point's entry (r, q) works on. -/
abbrev terms (c : Dev nD) (n : ℕ) (r q : Fin 1024) : ℕ → EReal :=
  term (xarr m c) (warr m c) (n / 16 * 1024 + r.val) (n / 4 % 4 * 1024 + q.val)

/-- The product of a point's two blocks at (r, q) is block `k` of that contraction. -/
theorem product_eq_block (c : Dev nD) (t : Fin cfg0.N) (r q : Fin 1024) :
    ∑ k : Fin 1024, xblk m c t (ix2 r k) * wblk m c t (ix2 q k) = block (terms m c t.val r q) 1024 (t.val % 4) := by
  rw [← sum_fin_eq_block]
  refine Finset.sum_congr rfl fun k _ => ?_
  rw [xblk_apply, wblk_apply]
  rfl

/-- One accumulate step at a point that is not a first contraction block: over blocks 0 … k−1 it gives blocks 0 … k. -/
theorem step_eq (c : Dev nD) (n : ℕ) (hn : n + 1 < cfg0.N) (h0 : ¬(n + 1) % 4 = 0) (r q : Fin 1024)
    (prev : Vec Ideal S1024x1024 .f32) (hprev : prev (ix2 r q) = accum0 (terms m c n r q) 1024 (n % 4)) :
    k0_pay2 (F := Ideal) (xblk m c ⟨n + 1, hn⟩) (wblk m c ⟨n + 1, hn⟩) prev (ix2 r q)
      = accum0 (terms m c (n + 1) r q) 1024 ((n + 1) % 4) := by
  rw [Payload.step_apply, hprev, product_eq_block]
  show accum0 (terms m c n r q) 1024 (n % 4) + block (terms m c (n + 1) r q) 1024 ((n + 1) % 4) = _
  have e1 : (n + 1) / 16 = n / 16 := by omega
  have e2 : (n + 1) / 4 % 4 = n / 4 % 4 := by omega
  have e3 : (n + 1) % 4 = n % 4 + 1 := by omega
  unfold terms
  rw [e1, e2, e3]
  rfl

/-- THE ACCUMULATOR after point `n`: blocks 0 … k of the contraction, added in order onto zero. -/
theorem acc_eq (c : Dev nD) : ∀ (n : ℕ) (h : n < cfg0.N) (r q : Fin 1024),
    (outsAt0 m c n h).2 (ix2 r q) = accum0 (terms m c n r q) 1024 (n % 4) := by
  intro n
  induction n with
  | zero =>
    intro h r q
    have h0 : (⟨0, h⟩ : Fin cfg0.N).val % 4 = 0 := rfl
    have h1 : ¬(⟨0, h⟩ : Fin cfg0.N).val % 4 = 3 := by show ¬(0 : ℕ) % 4 = 3; decide
    rw [outsAt0_A m c ⟨0, h⟩ h0 h1]; dsimp only
    refine (congrFun (Pieces.acc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun h' => h1 ((hcond0_1 ⟨0, h⟩).mp h')) (xblk m c ⟨0, h⟩) (wblk m c ⟨0, h⟩) (bblk m c ⟨0, h⟩)) (ix2 r q)).trans ?_
    rw [Payload.step_apply, Payload.zeros_apply, product_eq_block]
    rfl
  | succ n ih =>
    intro h r q
    have hN : cfg0.N = 64 := N_0
    by_cases h0 : (n + 1) % 4 = 0
    · have h1 : ¬(n + 1) % 4 = 3 := by omega
      rw [outsAt0_A m c ⟨n + 1, h⟩ h0 h1]; dsimp only
      refine (congrFun (Pieces.acc_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun h' => h1 ((hcond0_1 ⟨n + 1, h⟩).mp h')) (xblk m c ⟨n + 1, h⟩) (wblk m c ⟨n + 1, h⟩) (bblk m c ⟨n + 1, h⟩)) (ix2 r q)).trans ?_
      rw [Payload.step_apply, Payload.zeros_apply, product_eq_block]
      show 0 + block (terms m c (n + 1) r q) 1024 ((n + 1) % 4) = _
      rw [h0]
      rfl
    · by_cases h1 : (n + 1) % 4 = 3
      · rw [outsAt0_C m c ⟨n + 1, h⟩ h0 h1]; dsimp only
        refine (congrFun (Pieces.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) ((hcond0_1 ⟨n + 1, h⟩).mpr h1) (xblk m c ⟨n + 1, h⟩) (wblk m c ⟨n + 1, h⟩) (bblk m c ⟨n + 1, h⟩) (outsAt0 m c n (Nat.lt_of_succ_lt h)).2) (ix2 r q)).trans ?_
        exact step_eq m c n h h0 r q _ (ih (Nat.lt_of_succ_lt h) r q)
      · rw [outsAt0_B m c ⟨n + 1, h⟩ h0 h1]; dsimp only
        refine (congrFun (Pieces.acc_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) (fun h' => h1 ((hcond0_1 ⟨n + 1, h⟩).mp h')) (xblk m c ⟨n + 1, h⟩) (wblk m c ⟨n + 1, h⟩) (bblk m c ⟨n + 1, h⟩) (outsAt0 m c n (Nat.lt_of_succ_lt h)).2) (ix2 r q)).trans ?_
        exact step_eq m c n h h0 r q _ (ih (Nat.lt_of_succ_lt h) r q)

/-- THE OUTPUT BLOCK at a last contraction block: the linear layer's entries of rows 1024·i …, columns 1024·j …. -/
theorem out_eq (c : Dev nD) (t : Fin cfg0.N) (h1 : t.val % 4 = 3) (r q : Fin 1024) :
    (outsAt0 m c t.val t.isLt).1 (ix2 r q)
      = linearAt (xarr m c) (warr m c) (barr m c) (t.val / 16 * 1024 + r.val) (t.val / 4 % 4 * 1024 + q.val) := by
  obtain ⟨n, h⟩ := t
  have hN : cfg0.N = 64 := N_0
  cases n with
  | zero => exact absurd (show (0 : ℕ) % 4 = 3 from h1) (by decide)
  | succ n =>
    have h0 : ¬(n + 1) % 4 = 0 := by have : (n + 1) % 4 = 3 := h1; omega
    have h1' : (n + 1) % 4 = 3 := h1
    show (outsAt0 m c (n + 1) h).1 (ix2 r q) = _
    rw [outsAt0_C m c ⟨n + 1, h⟩ h0 h1']; dsimp only
    refine (congrFun (Pieces.out_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun h' => h0 ((hcond0_0 ⟨n + 1, h⟩).mp h')) ((hcond0_1 ⟨n + 1, h⟩).mpr h1') (xblk m c ⟨n + 1, h⟩) (wblk m c ⟨n + 1, h⟩) (bblk m c ⟨n + 1, h⟩) (outsAt0 m c n (Nat.lt_of_succ_lt h)).2) (ix2 r q)).trans ?_
    rw [Payload.close_apply, step_eq m c n h h0 r q _ (acc_eq m c n (Nat.lt_of_succ_lt h) r q), bblk_apply]
    show accum0 (terms m c (n + 1) r q) 1024 ((n + 1) % 4) + _ = _
    rw [h1']
    exact accum0_three_add _ _ _ _ _

end Cert.KernelIdeal.Accum

end
-- ==== Proof.Result.lean ====
/-
  The array the kernel leaves, and the program's result.

  The output window is written back at the sixteen points whose contraction block is the last; the block written at
  (i, j, 3) is rows 1024·i …, columns 1024·j … of the linear layer of the flattened input, the weight and the bias row
  (`wrote_eq`), and those blocks tile the [4096, 4096] result (`covered`).  The lines of the program around the kernel
  are reshapes: [32, 128, 4096] → [4096, 4096] and [4096] → [1, 4096] before it, [4096, 4096] → [32, 128, 4096] after.
-/
import proofs.«160775_j12249246728781_1_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.Spec

variable (m : (ℓ : Loc nD τ sig) → Buf (Elt Ideal) ℓ) (ρ : Dev nD → PrngReg)

/-- The linear layer of the arrays the region finds. -/
abbrev layer (c : Dev nD) : Vec Ideal S4096x4096 .f32 := linear (xarr m c) (warr m c) (barr m c)

/-- An entry of a written-back block is the layer's entry at the block's offset. -/
theorem block_entry (c : Dev nD) (t : Fin cfg0.N) (h1 : t.val % 4 = 3) (r q : Fin 1024) (i : S4096x4096.Idx)
    (e0 : (i 0).val = t.val / 16 * 1024 + r.val) (e1 : (i 1).val = t.val / 4 % 4 * 1024 + q.val) :
    (outsAt0 m c t.val t.isLt).1 (ix2 r q) = layer m c i := by
  rw [out_eq m c t h1]
  show _ = linearAt (xarr m c) (warr m c) (barr m c) (i 0).val (i 1).val
  rw [e0, e1]

/-- WHAT A WRITING POINT WRITES BACK is its block of the layer. -/
theorem wrote_eq (c : Dev nD) (t : Fin cfg0.N) (hf : (cfg0.win 3).flush t = true) :
    (dats m 0 c).flushed 3 t = ((cfg0.win 3).blk t).view.read (Elt Ideal) (layer m c) := by
  have h1 : t.val % 4 = 3 := (flush0_3 t).mp hf
  obtain ⟨-, -, -, -, -, -, e0, e1⟩ := idx_facts t
  show (cfg0.win 3).cut (grid0.coords t) ((dats m 0 c).after 3 t) = _
  rw [after0_3]
  funext j
  rw [View.read_apply]
  refine (congrArg (outsAt0 m c t.val t.isLt).1 (eq_ix2 (n0 := 1024) (n1 := 1024) j)).trans ?_
  refine block_entry m c t h1 (j 0) (j 1) _ ?_ ?_
  · show win0_3.index t (0 : Fin 2) * 1024 + 1 * (j 0).val = _; omega
  · show win0_3.index t (1 : Fin 2) * 1024 + 1 * (j 1).val = _; omega

/-- An index of the result is in point `t`'s block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry of the result is in the block written at (row block, column block, 3). -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  obtain ⟨n, hn⟩ : ∃ n, n = (i 0).val / 1024 * 16 + (i 1).val / 1024 * 4 + 3 := ⟨_, rfl⟩
  have hlt : n < cfg0.N := by omega
  refine ⟨⟨n, hlt⟩, (flush0_3 _).mpr (by show n % 4 = 3; omega), ?_⟩
  rw [mem_block]
  obtain ⟨-, -, -, -, -, -, e0, e1⟩ := idx_facts ⟨n, hlt⟩
  have e0' : win0_3.index ⟨n, hlt⟩ (0 : Fin 2) = n / 16 := e0
  have e1' : win0_3.index ⟨n, hlt⟩ (1 : Fin 2) = n / 4 % 4 := e1
  intro a
  match a with
  | ⟨0, _⟩ => show win0_3.index ⟨n, hlt⟩ (0 : Fin 2) * 1024 ≤ (i 0).val ∧ (i 0).val < win0_3.index ⟨n, hlt⟩ (0 : Fin 2) * 1024 + 1024; omega
  | ⟨1, _⟩ => show win0_3.index ⟨n, hlt⟩ (1 : Fin 2) * 1024 ≤ (i 1).val ∧ (i 1).val < win0_3.index ⟨n, hlt⟩ (1 : Fin 2) * 1024 + 1024; omega

/-- THE RESULT ARRAY of the kernel after the run is the layer. -/
theorem final (c : Dev nD) : (dats m 0 c).arrAt 3 cfg0.N = layer m c :=
  (dats m 0 c).arrAt_eq_of_cover 3 (layer m c) (wrote_eq m c) covered

/-- The flattened input the region finds is the reshape of the program's first argument, -/
theorem xarr_eq (c : Dev nD) :
    xarr m c = shapeCast S4096x4096 (m ((c : Thread nD τ).loc main_arg0)) shapeCasts_S32x128x4096_S4096x4096 := by
  show StableHlo.after hostOps0 (fun b => m (c, b)) (Proc.devRef .tc main_v0) = _
  after_results
  rfl

/-- the bias row the reshape of its third, -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

/-- and the weight its second, untouched. -/
theorem warr_eq (c : Dev nD) : warr m c = m ((c : Thread nD τ).loc main_arg1) := V_main_arg1 m c

/-- The program's result: the layer reshaped to [32, 128, 4096]. -/
theorem tail_eq (c : Dev nD) :
    Pipeline.afterTail₀ cfgs (dats m) 0 (V0 m) [hostOps1] c main_v3
      = shapeCast S32x128x4096 (layer m c) shapeCasts_S4096x4096_S32x128x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = layer m c :=
    (Pipeline.withArrays_arr spec0 launch0.win.arr_inj c _ _ 3).trans (final m c)
  rw [e]
  rfl

/-- A vector reshaped to a one-row matrix, read at (0, q), is the vector at q. -/
theorem row_of_vector (b : S4096.Idx → EReal) (h : S4096.ShapeCasts S1x4096) (q : Fin 4096) :
    shapeCast S1x4096 b h (ix2 0 q) = b (ix1 q) :=
  shapeCast_apply b h (ix2 0 q) (ix1 q) (by
    rw [Shape.rowMajor_val_one, Shape.rowMajor_val_two]; show q.val = 0 * 4096 + q.val; omega)

/-- THE RUN, READ: the program's result is the linear layer of the reshaped arguments, reshaped back; the arguments end
    as they began. -/
theorem run : θ_run defs (onTc (τ := τ) (main (F := Ideal))) ⟨m, fun _ => 0, ρ⟩ fun r => ∀ c : Dev nD,
      r.2.mem ((c.tc : Thread nD τ).loc main_v3)
        = shapeCast S32x128x4096 (linear (shapeCast S4096x4096 (m ((c.tc : Thread nD τ).loc main_arg0)) shapeCasts_S32x128x4096_S4096x4096)
            (m ((c.tc : Thread nD τ).loc main_arg1)) (shapeCast S1x4096 (m ((c.tc : Thread nD τ).loc main_arg2)) shapeCasts_S4096_S1x4096))
            shapeCasts_S4096x4096_S32x128x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans ((tail_eq m c).trans (by
        show shapeCast S32x128x4096 (linear (xarr m c) (warr m c) (barr m c)) _ = _
        rw [xarr_eq m c, warr_eq m c, barr_eq m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference read entry by entry.

  The reference flattens the input to [4096, 4096], contracts its rows against the weight's rows (`nc,oc->no`), adds the
  bias broadcast over the rows, and reshapes back.  Before that last reshape its entry (R, Q) is the whole contraction
  plus bias[Q]: the linear layer of the specification, for any one-row matrix that holds the bias.
-/
import proofs.«160775_j12249246728781_1_alg».proof.Defs
import proofs.«160775_j12249246728781_1_alg».proof.Proof.Gen.ReferenceIdeal.Read
import proofs.«160775_j12249246728781_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.RefValue

open Cert.ReferenceIdeal Cert.ReferenceIdeal.Gen Cert.ReferenceIdeal.Read Cert.Spec

theorem lidx_eq (R Q k : Fin 4096) : lidx_main_v1 (ix2 R Q) k = ix2 R k :=
  funext fun a => by match a with | ⟨0, _⟩ => rfl | ⟨1, _⟩ => rfl
theorem ridx_eq (R Q k : Fin 4096) : ridx_main_v1 (ix2 R Q) k = ix2 Q k :=
  funext fun a => by match a with | ⟨0, _⟩ => rfl | ⟨1, _⟩ => rfl
theorem bidx_eq (R Q : Fin 4096) : idx_main_v2 (idx_main_v3 (ix2 R Q)) = ix1 Q :=
  funext fun a => by match a with | ⟨0, _⟩ => rfl

/-- The reference's matrix before its final reshape is the linear layer of the flattened input, the weight and any
    one-row matrix `b2` holding the bias. -/
theorem matrix_eq (x : Vec Ideal S32x128x4096 .f32) (w : Vec Ideal S4096x4096 .f32) (b : Vec Ideal S4096 .f32)
    (b2 : S1x4096.Idx → EReal) (hb : ∀ q : Fin 4096, b2 (ix2 0 q) = b (ix1 q)) :
    val_main_v4 (F := Ideal) x w b = linear (val_main_v0 (F := Ideal) x) w b2 := by
  funext i
  obtain ⟨R, Q, rfl⟩ : ∃ (R Q : Fin 4096), i = ix2 R Q := ⟨i 0, i 1, eq_ix2 i⟩
  rw [val_main_v4_apply, val_main_v1_apply, val_main_v3_apply, val_main_v2_apply, bidx_eq]
  show (∑ k : Fin 4096, _) + _ = (∑ κ ∈ Finset.range 4096, term (val_main_v0 (F := Ideal) x) w R.val Q.val κ) + at2 b2 0 Q.val
  rw [← sum_fin_eq_range (term (val_main_v0 (F := Ideal) x) w R.val Q.val)]
  refine congrArg₂ (· + ·) (Finset.sum_congr rfl fun k _ => ?_) ?_
  · rw [lidx_eq, ridx_eq]
    unfold term
    rw [at2_of_lt _ R k, at2_of_lt _ Q k]
  · rw [← hb]
    exact (at2_of_lt b2 (0 : Fin 1) Q).symm

end Cert.RefValue

end
-- ==== Proof.lean ====
/-
  A linear layer  y = x · Wᵀ + b  on x : [32, 128, 4096], W : [4096 outputs, 4096 features], b : [4096].

  The kernel flattens x to [4096, 4096], runs a 4 × 4 × 4 grid of [1024, 1024] blocks that accumulates the contraction
  over the features block by block in a scratch accumulator (zeroed at the first contraction block, the bias added and
  the block written out at the last), and reshapes the result back.  The reference is one contraction of the flattened
  input against the weight plus the broadcast bias, reshaped back.  Over the extended reals both compute, at entry
  (R, Q) of the [4096, 4096] matrix,  Σ_κ x[R, κ] · W[Q, κ] + b[Q]:  the kernel's four blocks added in order onto zero
  are the one sum of 4096 terms by associativity of addition alone, so no input needs to be finite, and narrowing the
  operands to bf16 is the identity on extended reals.

  The three frames: the two kernel programs by their generated frame runs, the reference by its generated run with the
  result dropped.  The idealization rewrote nothing.  The value claim: the kernel's result array read off its frame run
  (Pieces, Payload, Accum, Result), the reference's off its run (RefValue), both the specification's `linear` (Spec).
-/
import proofs.«160775_j12249246728781_1_alg».proof.Defs
import proofs.«160775_j12249246728781_1_alg».proof.Proof.Gen.Kernel
import proofs.«160775_j12249246728781_1_alg».proof.Proof.Gen.Kernel.Frame
import proofs.«160775_j12249246728781_1_alg».proof.Proof.Gen.KernelIdeal
import proofs.«160775_j12249246728781_1_alg».proof.Proof.Gen.KernelIdeal.Frame
import proofs.«160775_j12249246728781_1_alg».proof.Proof.Gen.ReferenceIdeal
import proofs.«160775_j12249246728781_1_alg».proof.Proof.Gen.ReferenceIdeal.Run
import proofs.«160775_j12249246728781_1_alg».proof.Proof.Gen.ReferenceIdeal.Read
import proofs.«160775_j12249246728781_1_alg».proof.Proof.Gen.Pre_finite_inputs
import proofs.«160775_j12249246728781_1_alg».proof.Proof.Result
import proofs.«160775_j12249246728781_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the linear layer of the reshaped arguments, reshaped back to [32, 128, 4096]. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun v => shapeCast _ v _)
    (Cert.RefValue.matrix_eq _ _ _ _ (Cert.KernelIdeal.Result.row_of_vector _ _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
